-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x12x1024x64 : Shape := ⟨4, ![8, 12, 1024, 64]⟩
abbrev S8x1024 : Shape := ⟨2, ![8, 1024]⟩
abbrev S_ : Shape := ⟨0, ![]⟩

class Facts : Prop where
  bcast_S_S8x12x1024x64 : S_.BroadcastsInDim S8x12x1024x64 (![] : Fin 0 → Fin S8x12x1024x64.rank)
  reducesTo_S8x12x1024x64_S_d0_1_2_3 : S8x12x1024x64.ReducesTo [0, 1, 2, 3] S_
  h_S_ : 0 < S_.numel

variable [Facts]

def fn {F : FTy → Type} [FloatOps F] (main_arg0 : FVec F S8x12x1024x64 .f32) (main_arg1 : FVec F S8x12x1024x64 .f32) (main_arg2 : FVec F S8x12x1024x64 .f32) (main_arg3 : IVec S8x1024 32) : IVec S_ 1 :=
  let main_v0 : FVec F S8x12x1024x64 .f32 := Host.absf main_arg0
  let main_cst : FVec F S_ .f32 := constant S_ .f32 0x7F800000#32
  let main_v1 : FVec F S8x12x1024x64 .f32 := broadcastInDim S8x12x1024x64 ![] bcast_S_S8x12x1024x64 main_cst
  let main_v2 : IVec S8x12x1024x64 1 := cmpf .olt main_v0 main_v1
  let main_c : IVec S_ 1 := constantI S_ 1 1#1
  let main_v3 : IVec S_ 1 := (fun x v => Host.reduce IntOp.andi x v reducesTo_S8x12x1024x64_S_d0_1_2_3 h_S_) main_v2 main_c
  let main_v4 : FVec F S8x12x1024x64 .f32 := Host.absf main_arg1
  let main_cst_0 : FVec F S_ .f32 := constant S_ .f32 0x7F800000#32
  let main_v5 : FVec F S8x12x1024x64 .f32 := broadcastInDim S8x12x1024x64 ![] bcast_S_S8x12x1024x64 main_cst_0
  let main_v6 : IVec S8x12x1024x64 1 := cmpf .olt main_v4 main_v5
  let main_c_1 : IVec S_ 1 := constantI S_ 1 1#1
  let main_v7 : IVec S_ 1 := (fun x v => Host.reduce IntOp.andi x v reducesTo_S8x12x1024x64_S_d0_1_2_3 h_S_) main_v6 main_c_1
  let main_v8 : IVec S_ 1 := andi main_v3 main_v7
  let main_v9 : FVec F S8x12x1024x64 .f32 := Host.absf main_arg2
  let main_cst_2 : FVec F S_ .f32 := constant S_ .f32 0x7F800000#32
  let main_v10 : FVec F S8x12x1024x64 .f32 := broadcastInDim S8x12x1024x64 ![] bcast_S_S8x12x1024x64 main_cst_2
  let main_v11 : IVec S8x12x1024x64 1 := cmpf .olt main_v9 main_v10
  let main_c_3 : IVec S_ 1 := constantI S_ 1 1#1
  let main_v12 : IVec S_ 1 := (fun x v => Host.reduce IntOp.andi x v reducesTo_S8x12x1024x64_S_d0_1_2_3 h_S_) main_v11 main_c_3
  let main_v13 : IVec S_ 1 := andi main_v8 main_v12
  main_v13
-- ==== Kernel.lean ====
abbrev S8x12x1024x64 : Shape := ⟨4, ![8, 12, 1024, 64]⟩
abbrev S8x1024 : Shape := ⟨2, ![8, 1024]⟩
abbrev S_ : Shape := ⟨0, ![]⟩
abbrev S8x1x1024 : Shape := ⟨3, ![8, 1, 1024]⟩
abbrev S8x12x1024x1024 : Shape := ⟨4, ![8, 12, 1024, 1024]⟩
abbrev S1x1x1024x64 : Shape := ⟨4, ![1, 1, 1024, 64]⟩
abbrev S1x1x1024 : Shape := ⟨3, ![1, 1, 1024]⟩
abbrev S1x1x1024x1024 : Shape := ⟨4, ![1, 1, 1024, 1024]⟩
abbrev S1024x64 : Shape := ⟨2, ![1024, 64]⟩
abbrev S64x1024 : Shape := ⟨2, ![64, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S8x12x1024x64, .f32⟩
  | .hbm, ⟨1, _⟩ => ⟨S8x12x1024x64, .f32⟩
  | .hbm, ⟨2, _⟩ => ⟨S8x12x1024x64, .f32⟩
  | .hbm, ⟨3, _⟩ => ⟨S8x1024, .i32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1x1024, .f32⟩
  | .hbm, ⟨12, _⟩ => ⟨S8x12x1024x64, .f32⟩
  | .hbm, ⟨13, _⟩ => ⟨S8x12x1024x1024, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x1024x64, .f32⟩
  | .local _ .vmem, ⟨3, _⟩ => ⟨S1x1x1024x64, .f32⟩
  | .local _ .vmem, ⟨4, _⟩ => ⟨S1x1x1024x64, .f32⟩
  | .local _ .vmem, ⟨5, _⟩ => ⟨S1x1x1024x64, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024x64, .f32⟩
  | .local _ .vmem, ⟨9, _⟩ => ⟨S1x1x1024x64, .f32⟩
  | .local _ .vmem, ⟨10, _⟩ => ⟨S1x1x1024x1024, .f32⟩
  | .local _ .vmem, ⟨11, _⟩ => ⟨S1x1x1024x1024, .f32⟩
  | _, _ => ⟨S8x12x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bcast_S_S8x1024 : S_.BroadcastsInDim S8x1024 (![] : Fin 0 → Fin S8x1024.rank)
  bcast_S8x1024_S8x1x1024_0_2 : S8x1024.BroadcastsInDim S8x1x1024 (![0, 2] : Fin 2 → Fin S8x1x1024.rank)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  transposes_S1024x64_p1_0_S64x1024 : S1024x64.Transposes [1, 0] S64x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  reduces_S1024x1024_S1024 : S1024x1024.Reduces [1] S1024
  shapeCasts_S1024_S1024x1 : S1024.ShapeCasts S1024x1
  broadcasts_S1024x1_S1024x1024 : S1024x1.Broadcasts S1024x1024
  inb_S1x1x1024x1024_S1x1x1024x1024_0_0_0_0 : ∀ a, (![0, 0, 0, 0] : Fin 4 → Nat) a + S1x1x1024x1024.size a ≤ S1x1x1024x1024.size a
  h_S1x1x1024x1024 : 0 < S1x1x1024x1024.numel
  shapeCasts_S1x1x1024x1024_S1024x1024 : S1x1x1024x1024.ShapeCasts S1024x1024
  shapeCasts_S1024x1024_S1x1x1024x1024 : S1024x1024.ShapeCasts S1x1x1024x1024
  shapeCasts_S1024x64_S1x1x1024x64 : S1024x64.ShapeCasts S1x1x1024x64
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S8x12x1024x64.size a
  hwx0_0 : ∀ i : grid0.Coords, EltTy.bits .f32 = 32 ∨ (Rect.block (s := S8x12x1024x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024x64.size a ≤ S8x12x1024x64.size a
  hwx0_1 : ∀ i : grid0.Coords, EltTy.bits .f32 = 32 ∨ (Rect.block (s := S8x12x1024x64) S1x1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024x64.size a ≤ S8x12x1024x64.size a
  hwx0_2 : ∀ i : grid0.Coords, EltTy.bits .f32 = 32 ∨ (Rect.block (s := S8x12x1024x64) S1x1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S8x1x1024.size a
  hwx0_3 : ∀ i : grid0.Coords, EltTy.bits .f32 = 32 ∨ (Rect.block (s := S8x1x1024) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S8x12x1024x64.size a
  hwx0_4 : ∀ i : grid0.Coords, EltTy.bits .f32 = 32 ∨ (Rect.block (s := S8x12x1024x64) S1x1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024x1024.size a ≤ S8x12x1024x1024.size a
  hwx0_5 : ∀ i : grid0.Coords, EltTy.bits .f32 = 32 ∨ (Rect.block (s := S8x12x1024x1024) S1x1x1024x1024.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6_0) S1x1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v6_1) S1x1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x12x1024x64 : Shape := ⟨4, ![8, 12, 1024, 64]⟩
abbrev S8x1024 : Shape := ⟨2, ![8, 1024]⟩
abbrev S8x12x1024x1024 : Shape := ⟨4, ![8, 12, 1024, 1024]⟩
abbrev S_ : Shape := ⟨0, ![]⟩
abbrev S8x1x1x1024 : Shape := ⟨4, ![8, 1, 1, 1024]⟩
abbrev S8x12x1024 : Shape := ⟨3, ![8, 12, 1024]⟩
abbrev S8x12x1024x1 : Shape := ⟨4, ![8, 12, 1024, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x12x1024x64, .f32⟩
  | .hbm, ⟨1, _⟩ => ⟨S8x12x1024x64, .f32⟩
  | .hbm, ⟨2, _⟩ => ⟨S8x12x1024x64, .f32⟩
  | .hbm, ⟨3, _⟩ => ⟨S8x1024, .i32⟩
  | .hbm, ⟨4, _⟩ => ⟨S8x12x1024x1024, .f32⟩
  | .hbm, ⟨5, _⟩ => ⟨S_, .f32⟩
  | .hbm, ⟨6, _⟩ => ⟨S8x12x1024x1024, .f32⟩
  | .hbm, ⟨7, _⟩ => ⟨S8x12x1024x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1x1x1024, .f32⟩
  | .hbm, ⟨13, _⟩ => ⟨S_, .f32⟩
  | .hbm, ⟨14, _⟩ => ⟨S8x1x1x1024, .f32⟩
  | .hbm, ⟨15, _⟩ => ⟨S8x1x1x1024, .f32⟩
  | .hbm, ⟨16, _⟩ => ⟨S8x12x1024x1024, .f32⟩
  | .hbm, ⟨17, _⟩ => ⟨S8x12x1024x1024, .f32⟩
  | .hbm, ⟨18, _⟩ => ⟨S8x12x1024x1024, .f32⟩
  | .hbm, ⟨19, _⟩ => ⟨S_, .f32⟩
  | .hbm, ⟨20, _⟩ => ⟨S8x12x1024, .f32⟩
  | .hbm, ⟨21, _⟩ => ⟨S8x12x1024x1, .f32⟩
  | .hbm, ⟨22, _⟩ => ⟨S_, .f32⟩
  | .hbm, ⟨23, _⟩ => ⟨S8x12x1024x1, .f32⟩
  | .hbm, ⟨24, _⟩ => ⟨S8x12x1024x1, .f32⟩
  | .hbm, ⟨25, _⟩ => ⟨S8x12x1024x1024, .f32⟩
  | .hbm, ⟨26, _⟩ => ⟨S8x12x1024x1024, .f32⟩
  | .hbm, ⟨27, _⟩ => ⟨S8x12x1024x64, .f32⟩
  | _, _ => ⟨S8x12x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S_S8x12x1024x1024 : S_.BroadcastsInDim S8x12x1024x1024 (![] : Fin 0 → Fin S8x12x1024x1024.rank)
  bcast_S_S8x1024 : S_.BroadcastsInDim S8x1024 (![] : Fin 0 → Fin S8x1024.rank)
  bcast_S8x1024_S8x1x1x1024_0_3 : S8x1024.BroadcastsInDim S8x1x1x1024 (![0, 3] : Fin 2 → Fin S8x1x1x1024.rank)
  bcast_S_S8x1x1x1024 : S_.BroadcastsInDim S8x1x1x1024 (![] : Fin 0 → Fin S8x1x1x1024.rank)
  bcast_S8x1x1x1024_S8x12x1024x1024_0_1_2_3 : S8x1x1x1024.BroadcastsInDim S8x12x1024x1024 (![0, 1, 2, 3] : Fin 4 → Fin S8x12x1024x1024.rank)
  reducesTo_S8x12x1024x1024_S8x12x1024_d3 : S8x12x1024x1024.ReducesTo [3] S8x12x1024
  h_S_ : 0 < S_.numel
  bcast_S8x12x1024_S8x12x1024x1_0_1_2 : S8x12x1024.BroadcastsInDim S8x12x1024x1 (![0, 1, 2] : Fin 3 → Fin S8x12x1024x1.rank)
  bcast_S_S8x12x1024x1 : S_.BroadcastsInDim S8x12x1024x1 (![] : Fin 0 → Fin S8x12x1024x1.rank)
  bcast_S8x12x1024x1_S8x12x1024x1024_0_1_2_3 : S8x12x1024x1.BroadcastsInDim S8x12x1024x1024 (![0, 1, 2, 3] : Fin 4 → Fin S8x12x1024x1024.rank)
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]

variable [Facts₀]

def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf

class Facts : Prop extends Facts₀ where

variable [Facts]
-- ==== Proof.LibRowwise.lean ====
/-
  Rank-2 vectors read row by row, at the extended reals, for any sizes.

    * a plain matrix product `[M, K] × [K, N]` into a zero accumulator, at `(p, q)`: `∑ₖ a(p, k) · b(k, q)`;
    * a sum over the lanes (axis 1) of an `[A, B]` vector, at row `p`: `∑ₖ v(p, k)`;
    * a maximum over the lanes, at row `p`: the fold of `max` from the starting word's value over `v(p, ·)`;
    * the cast of a length-`A` vector to a column `[A, 1]`, at `(p, u)`: the vector at `p`;
    * the broadcast of a column `[A, 1]` along the lanes to `[A, B]`, at `(p, q)`: the column at `(p, 0)`.

  A dimension-numbers record that contracts the left operand's axis 1 with the right operand's axis 0 and has no batch
  axes IS the plain record (`eq_plain`), so the product lemma serves every such record a program prints.
-/
import Idealize.ShloMosaic.PureOps.Ideal.Laws
import Idealize.ShloMosaic.Lib.ValueIdx
import Idealize.ShloMosaic.Lib.Pipeline.Value

noncomputable section

namespace Cert.Lib.Rowwise

open Idealize.ShloMosaic Idealize.ShloMosaic.ValueIdx

/-! ## The plain matrix product -/

section Dot

variable {M K N : Nat}

/-- A record over `[M, K]`, `[K, N]`, `[M, N]` whose six lists are the plain product's is the plain record. -/
theorem eq_plain (D : DotDims ⟨2, ![M, K]⟩ ⟨2, ![K, N]⟩ ⟨2, ![M, N]⟩) (h1 : D.lhsContracting = [1]) (h2 : D.rhsContracting = [0])
    (h3 : D.lhsNonContracting = [0]) (h4 : D.rhsNonContracting = [1]) (h5 : D.lhsBatch = []) (h6 : D.rhsBatch = []) :
    D = DotDims.plain M K N := by
  cases D
  simp only at h1 h2 h3 h4 h5 h6
  subst h1 h2 h3 h4 h5 h6
  rfl

theorem plain_lhs0 (j : (⟨2, ![M, N]⟩ : Shape).Idx) (q : (DotDims.plain M K N).contr.Idx) :
    ((DotDims.plain M K N).lhsIdx j q 0).val = (j 0).val := rfl
theorem plain_lhs1 (j : (⟨2, ![M, N]⟩ : Shape).Idx) (q : (DotDims.plain M K N).contr.Idx) :
    ((DotDims.plain M K N).lhsIdx j q 1).val = (q ⟨0, Nat.one_pos⟩).val := rfl
theorem plain_rhs0 (j : (⟨2, ![M, N]⟩ : Shape).Idx) (q : (DotDims.plain M K N).contr.Idx) :
    ((DotDims.plain M K N).rhsIdx j q 0).val = (q ⟨0, Nat.one_pos⟩).val := rfl
theorem plain_rhs1 (j : (⟨2, ![M, N]⟩ : Shape).Idx) (q : (DotDims.plain M K N).contr.Idx) :
    ((DotDims.plain M K N).rhsIdx j q 1).val = (j 1).val := rfl

/-- The plain product into the zero word, read at `(p, q)`: the sum over the contracted coordinate. -/
theorem plain_matmul_zero_apply {φ₁ φ₂ : FTy} (prec : Option ContractPrecision) (a : FVec Ideal ⟨2, ![M, K]⟩ φ₁)
    (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

end Dot

/-! ## Lane reductions -/

section Lanes

variable {A B : Nat} {φ : FTy}

/-- Row `p` with lane `k` put back is `(p, k)`. -/
theorem lift_row (h : (⟨2, ![A, B]⟩ : Shape).Reduces [1] ⟨1, ![A]⟩) (p : Fin A) (k : Fin B) :
    h.lift (ix1 p) k = ix2 p k :=
  funext fun a => Fin.ext (by match a with | ⟨0, _⟩ => rfl | ⟨1, _⟩ => rfl)

/-- A lane sum at row `p`. -/
theorem laneSum_apply (src : FVec Ideal ⟨2, ![A, B]⟩ φ) (acc : BitVec φ.bits) (h : (⟨2, ![A, B]⟩ : Shape).Reduces [1] ⟨1, ![A]⟩)
    (hφ : FKind.Formats φ) (hacc : acc = FKind.add.neutral φ hφ) (p : Fin A) :
    multiReduction .add [1] ⟨1, ![A]⟩ src acc h hφ hacc (ix1 p) = ∑ k : Fin B, src (ix2 p k) := by
  rw [Ideal.multiReduction_add_single]
  exact Finset.sum_congr rfl fun k _ => congrArg src (lift_row h p k)

/-- A lane maximum at row `p`: the fold of `max` from the starting word's value. -/
theorem laneMax_apply (src : FVec Ideal ⟨2, ![A, B]⟩ φ) (acc : BitVec φ.bits) (h : (⟨2, ![A, B]⟩ : Shape).Reduces [1] ⟨1, ![A]⟩)
    (hφ : FKind.Formats φ) (hacc : acc = FKind.maximumf.neutral φ hφ) (p : Fin A) :
    multiReduction .maximumf [1] ⟨1, ![A]⟩ src acc h hφ hacc (ix1 p)
      = (Finset.univ : Finset (Fin B)).fold max (Ideal.ofBits φ acc) (fun k => src (ix2 p k)) := by
  rw [Ideal.multiReduction_maximumf_single]
  have e : (src ∘ h.lift (ix1 p)) = fun k => src (ix2 p k) := funext fun k => congrArg src (lift_row h p k)
  rw [e]
  rfl

end Lanes

/-! ## Columns -/

section Columns

variable {A B : Nat} {α : Type}

/-- A length-`A` vector cast to a column reads, at `(p, u)`, the vector at `p`. -/
theorem column_apply (v : (⟨1, ![A]⟩ : Shape).Idx → α) (h : (⟨1, ![A]⟩ : Shape).ShapeCasts ⟨2, ![A, 1]⟩) (p : Fin A) (u : Fin 1) :
    shapeCast ⟨2, ![A, 1]⟩ v h (ix2 p u) = v (ix1 p) := by
  refine shapeCast_apply v h (ix2 p u) (ix1 p) ?_
  rw [Shape.rowMajor_val_one, Shape.rowMajor_val_two]
  have hu : u.val = 0 := by omega
  show p.val = p.val * 1 + u.val
  omega

/-- A column broadcast along the lanes reads, at `(p, q)`, the column at `(p, 0)`. -/
theorem columnBroadcast_apply (v : (⟨2, ![A, 1]⟩ : Shape).Idx → α) (h : (⟨2, ![A, 1]⟩ : Shape).Broadcasts ⟨2, ![A, B]⟩)
    (hA : A ≠ 1) (p : Fin A) (q : Fin B) : broadcastTo ⟨2, ![A, B]⟩ v h (ix2 p q) = v (ix2 p 0) := by
  refine broadcastTo_apply v h (ix2 p q) (ix2 p 0) fun a => ?_
  match a with
  | ⟨0, _⟩ => exact (if_neg hA).symm
  | ⟨1, _⟩ => exact (if_pos rfl).symm

end Columns

end Cert.Lib.Rowwise

end
-- ==== Proof.LibUnitAxes.lean ====
/-
  Two leading unit axes dropped by a shape cast, read at an index, for any sizes and any element type:
  a `[1, 1, a, b]` array cast to `[a, b]` reads, at `(i, j)`, the operand at `(0, 0, i, j)`.
-/
import Idealize.ShloMosaic.Lib.ValueIdx
import Idealize.ShloMosaic.Lib.Pipeline.Value

namespace Cert.Lib.UnitAxes

open Idealize.ShloMosaic Idealize.ShloMosaic.ValueIdx

variable {α : Type}

/-- Both arrays are laid out row by row, and the two unit axes add nothing to the row-major position. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

end Cert.Lib.UnitAxes
-- ==== Proof.Spec.lean ====
/-
  Power-softmax attention (exponent 2) at the extended reals, index by index.

  For a batch `b`, a head `h`, a query row `i` and a key row `j`:

    bias(b, j)        = (1 - float(mask(b, j))) · (-10000)
    score(b, h, i, j) = (∑_d q(b, h, i, d) · k(b, h, j, d)) · 1/8 + bias(b, j)
    num(b, h, i, j)   = score(b, h, i, j)²
    den(b, h, i)      = ∑_j num(b, h, i, j) + ε
    prob(b, h, i, j)  = num(b, h, i, j) / den(b, h, i)
    out(b, h, i, d)   = ∑_j prob(b, h, i, j) · v(b, h, j, d)

  The four constants are kept as the words both programs print; no law beyond reading both programs at an index is
  needed, so nothing here asks the inputs to be finite.
-/
import Idealize.ShloMosaic.PureOps.Ideal
import Idealize.ShloMosaic.Lib.ValueIdx

noncomputable section

namespace Cert.PowerAttn

open Idealize.ShloMosaic Idealize.ShloMosaic.ValueIdx

abbrev SQ : Shape := ⟨4, ![8, 12, 1024, 64]⟩
abbrev SM : Shape := ⟨2, ![8, 1024]⟩
abbrev SP : Shape := ⟨4, ![8, 12, 1024, 1024]⟩

/-- The word of `1`. -/
abbrev oneW : EReal := Ideal.ofBits .f32 0x3F800000#32
/-- The word of `-10000`. -/
abbrev negW : EReal := Ideal.ofBits .f32 0xC61C4000#32
/-- The word of `1/8`. -/
abbrev scaleW : EReal := Ideal.ofBits .f32 0x3E000000#32
/-- The word of `ε`. -/
abbrev epsW : EReal := Ideal.ofBits .f32 0x358637BD#32

/-- The additive term of a key position: `0` where the mask is one, `-10000` where it is zero. -/
def bias (mk : IVec SM 32) (b : Fin 8) (j : Fin 1024) : EReal :=
  (oneW - FloatOps.sitofp (F := Ideal) .f32 (mk (ix2 b j))) * negW

/-- The scaled inner product of a query row and a key row, plus the key's additive term. -/
def score (q k : FVec Ideal SQ .f32) (mk : IVec SM 32) (b : Fin 8) (h : Fin 12) (i j : Fin 1024) : EReal :=
  (∑ d : Fin 64, q (ix4 b h i d) * k (ix4 b h j d)) * scaleW + bias mk b j

/-- The numerator: the score squared. -/
def num (q k : FVec Ideal SQ .f32) (mk : IVec SM 32) (b : Fin 8) (h : Fin 12) (i j : Fin 1024) : EReal :=
  score q k mk b h i j * score q k mk b h i j

/-- The denominator of a query row: its numerators summed, plus `ε`. -/
def den (q k : FVec Ideal SQ .f32) (mk : IVec SM 32) (b : Fin 8) (h : Fin 12) (i : Fin 1024) : EReal :=
  (∑ j : Fin 1024, num q k mk b h i j) + epsW

/-- The weights. -/
def prob (q k : FVec Ideal SQ .f32) (mk : IVec SM 32) : FVec Ideal SP .f32 := fun y =>
  Ideal.div (num q k mk (y 0) (y 1) (y 2) (y 3)) (den q k mk (y 0) (y 1) (y 2))

/-- The weighted sum of the value rows. -/
def out (q k v : FVec Ideal SQ .f32) (mk : IVec SM 32) : FVec Ideal SQ .f32 := fun y =>
  ∑ j : Fin 1024, prob q k mk (ix4 (y 0) (y 1) (y 2) j) * v (ix4 (y 0) (y 1) j (y 3))

end Cert.PowerAttn

end
-- ==== Proof.BodyValue.lean ====
/-
  The kernel body's two stored values read at an index, at the extended reals.

  The body holds one (batch, head) pair: a query block `x0`, a key block `x1`, a value block `x2` (each 1024 rows of
  64 lanes behind two unit axes) and that batch's additive row `x3` (1024 lanes behind two unit axes). It computes

    s(p, q)  = (∑_d x0(p, d) · x1(q, d)) · 1/8 + x3(q)          (the product with the transposed key block)
    w(p, q)  = s(p, q)² / (∑_j s(p, j)² + ε)                     (each row divided by its own sum)
    o(p, d)  = ∑_j w(p, j) · x2(j, d)

  and stores `w` and `o`. A change of float format is the identity here, the product into a zero accumulator is the
  plain sum, and the lane sum starts from the zero word.
-/
import proofs.«140922_j47691316855178_1_alg».proof.Proof.Gen.KernelIdeal.Skeleton
import proofs.«140922_j47691316855178_1_alg».proof.Proof.LibRowwise
import proofs.«140922_j47691316855178_1_alg».proof.Proof.LibUnitAxes
import proofs.«140922_j47691316855178_1_alg».proof.Proof.Spec
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx
open Cert.Lib.Rowwise Cert.Lib.UnitAxes Cert.PowerAttn

variable (x0 x1 x2 : Vec Ideal S1x1x1024x64 .f32) (x3 : Vec Ideal S1x1x1024 .f32)

/-! ## What one block computes, as formulas -/

/-- The score of query row `p` against key row `q`. -/
def bscore (p q : Fin 1024) : EReal :=
  (∑ d : Fin 64, x0 (ix4 (0 : Fin 1) (0 : Fin 1) p d) * x1 (ix4 (0 : Fin 1) (0 : Fin 1) q d)) * scaleW
    + x3 (ix3 (0 : Fin 1) (0 : Fin 1) q)

/-- A row of any score matrix divided by its own sum of squares plus `ε`. -/
def rowNorm (s : FVec Ideal S1024x1024 .f32) (p q : Fin 1024) : EReal :=
  Ideal.div (s (ix2 p q) * s (ix2 p q)) ((∑ j : Fin 1024, s (ix2 p j) * s (ix2 p j)) + epsW)

/-- The weight of key row `q` for query row `p`. -/
def bprob (p q : Fin 1024) : EReal :=
  Ideal.div (bscore x0 x1 x3 p q * bscore x0 x1 x3 p q)
    ((∑ j : Fin 1024, bscore x0 x1 x3 p j * bscore x0 x1 x3 p j) + epsW)

/-! ## The two matrix products -/

/-- The first product contracts the 64 lanes of a query row with a COLUMN of the transposed key block. -/
theorem qk_apply (a : FVec Ideal S1024x64 .bf16) (b : FVec Ideal S64x1024 .bf16) (p q : Fin 1024) :
    matmul dot_S1024x64_S64x1024_S1024x1024_1_0_0_1_n_n none a b (constant S1024x1024 .f32 0x00000000#32) (ix2 p q)
      = ∑ d : Fin 64, a (ix2 p d) * b (ix2 d q) := by
  rw [eq_plain dot_S1024x64_S64x1024_S1024x1024_1_0_0_1_n_n rfl rfl rfl rfl rfl rfl]
  exact plain_matmul_zero_apply none a b p q

/-- The second product contracts the 1024 weights of a query row with a column of the value block. -/
theorem pv_apply (a : FVec Ideal S1024x1024 .bf16) (b : FVec Ideal S1024x64 .bf16) (p : Fin 1024) (d : Fin 64) :
    matmul dot_S1024x1024_S1024x64_S1024x64_1_0_0_1_n_n none a b (constant S1024x64 .f32 0x00000000#32) (ix2 p d)
      = ∑ j : Fin 1024, a (ix2 p j) * b (ix2 j d) := by
  rw [eq_plain dot_S1024x1024_S1024x64_S1024x64_1_0_0_1_n_n rfl rfl rfl rfl rfl rfl]
  exact plain_matmul_zero_apply none a b p d

/-- The transposed key block at `(d, q)` is the key block at `(q, d)`. -/
theorem keyT_apply (v : FVec Ideal S1024x64 .bf16) (d : Fin 64) (q : Fin 1024) :
    transpose S64x1024 [1, 0] v transposes_S1024x64_p1_0_S64x1024 (ix2 d q) = v (ix2 q d) :=
  transpose_ix2_apply v transposes_S1024x64_p1_0_S64x1024 d q

/-! ## The score matrix -/

/-- The scores as the body computes them from its three loads. -/
def scoreVec : FVec Ideal S1024x1024 .f32 :=
  have v1 : FVec Ideal S1024x64 .f32 := shapeCast S1024x64 x0 shapeCasts_S1x1x1024x64_S1024x64
  have v2 : FVec Ideal S1024x64 .bf16 := truncf .bf16 v1 bitsLt_bf16_f32
  have v4 : FVec Ideal S1024x64 .f32 := shapeCast S1024x64 x1 shapeCasts_S1x1x1024x64_S1024x64
  have v5 : FVec Ideal S1024x64 .bf16 := truncf .bf16 v4 bitsLt_bf16_f32
  have v9 : FVec Ideal S64x1024 .bf16 := transpose S64x1024 [1, 0] v5 transposes_S1024x64_p1_0_S64x1024
  have cst : FVec Ideal S1024x1024 .f32 := constant S1024x1024 .f32 0x00000000#32
  have v10 : FVec Ideal S1024x1024 .f32 := matmul dot_S1024x64_S64x1024_S1024x1024_1_0_0_1_n_n none v2 v9 cst
  have cst_11 : Ideal .f32 := Scalar.ofBits .f32 0x3E000000#32
  have v11 : FVec Ideal S1024x1024 .f32 := broadcast S1024x1024 cst_11
  have v12 : FVec Ideal S1024x1024 .f32 := mulf v10 v11
  have v14 : FVec Ideal S1x1024 .f32 := shapeCast S1x1024 x3 shapeCasts_S1x1x1024_S1x1024
  have v15 : FVec Ideal S1024x1024 .f32 := broadcastTo S1024x1024 v14 broadcasts_S1x1024_S1024x1024
  addf v12 v15

theorem scoreVec_apply (p q : Fin 1024) : scoreVec x0 x1 x3 (ix2 p q) = bscore x0 x1 x3 p q := by
  unfold scoreVec bscore
  dsimp only
  rw [addf_apply, mulf_apply, broadcast_apply, qk_apply, broadcastTo_1b_ab_apply, shapeCast_1ab_ab_apply]
  refine congrArg (fun z : EReal => z * scaleW + x3 (ix3 (0 : Fin 1) (0 : Fin 1) q)) (Finset.sum_congr rfl fun d _ => ?_)
  rw [keyT_apply, truncf_apply, truncf_apply, shapeCast_11ab_ab_apply, shapeCast_11ab_ab_apply]

/-! ## The row normalisation -/

/-- The weights as the body computes them from any score matrix: square, sum the lanes, add `ε`, spread the column
    back over the lanes, divide. -/
def normVec (hφ : FKind.Formats FTy.f32) (hacc : (0x00000000#32 : BitVec FTy.f32.bits) = FKind.add.neutral FTy.f32 hφ)
    (v16 : FVec Ideal S1024x1024 .f32) : FVec Ideal S1024x1024 .f32 :=
  have v17 : FVec Ideal S1024x1024 .f32 := mulf v16 v16
  have v18 : FVec Ideal S1024 .f32 := multiReduction .add [1] S1024 v17 0x00000000#32 reduces_S1024x1024_S1024 hφ hacc
  have v19 : FVec Ideal S1024x1 .f32 := shapeCast S1024x1 v18 shapeCasts_S1024_S1024x1
  have cst_16 : Ideal .f32 := Scalar.ofBits .f32 0x358637BD#32
  have v20 : FVec Ideal S1024x1 .f32 := broadcast S1024x1 cst_16
  have v21 : FVec Ideal S1024x1 .f32 := addf v19 v20
  have v22 : FVec Ideal S1024x1024 .f32 := broadcastTo S1024x1024 v21 broadcasts_S1024x1_S1024x1024
  divf v17 v22

theorem normVec_apply (hφ : FKind.Formats FTy.f32) (hacc : (0x00000000#32 : BitVec FTy.f32.bits) = FKind.add.neutral FTy.f32 hφ)
    (s : FVec Ideal S1024x1024 .f32) (p q : Fin 1024) : normVec hφ hacc s (ix2 p q) = rowNorm s p q := by
  unfold normVec rowNorm
  dsimp only
  rw [divf_apply, columnBroadcast_apply (A := 1024) (B := 1024) _ _ (by decide) p q, addf_apply, column_apply,
    broadcast_apply, laneSum_apply]
  rfl

/-- The lane sum starts from the zero word, the neutral element of the f32 sum. -/
theorem zeroWord_neutral : (0x00000000#32 : BitVec FTy.f32.bits) = FKind.add.neutral FTy.f32 (.inl rfl) := rfl

/-- The first stored value is the row normalisation of the score matrix. -/
theorem pay2_eq : k0_pay2 (F := Ideal) x0 x1 x3 = normVec (.inl rfl) zeroWord_neutral (scoreVec x0 x1 x3) := rfl

theorem pay2_apply (p q : Fin 1024) : k0_pay2 (F := Ideal) x0 x1 x3 (ix2 p q) = bprob x0 x1 x3 p q := by
  rw [pay2_eq, normVec_apply]
  unfold rowNorm bprob
  simp only [scoreVec_apply]

/-! ## The weighted sum -/

/-- The second stored value from any weight matrix and the value block. -/
def outVec (w : FVec Ideal S1024x1024 .f32) : FVec Ideal S1024x64 .f32 :=
  have v7 : FVec Ideal S1024x64 .f32 := shapeCast S1024x64 x2 shapeCasts_S1x1x1024x64_S1024x64
  have v8 : FVec Ideal S1024x64 .bf16 := truncf .bf16 v7 bitsLt_bf16_f32
  have v27 : FVec Ideal S1024x1024 .bf16 := truncf .bf16 w bitsLt_bf16_f32
  have cst_21 : FVec Ideal S1024x64 .f32 := constant S1024x64 .f32 0x00000000#32
  matmul dot_S1024x1024_S1024x64_S1024x64_1_0_0_1_n_n none v27 v8 cst_21

theorem outVec_apply (w : FVec Ideal S1024x1024 .f32) (p : Fin 1024) (d : Fin 64) :
    outVec x2 w (ix2 p d) = ∑ j : Fin 1024, w (ix2 p j) * x2 (ix4 (0 : Fin 1) (0 : Fin 1) j d) := by
  unfold outVec
  try dsimp only
  rw [pv_apply]
  simp only [truncf_apply, shapeCast_11ab_ab_apply]

theorem pay4_eq : k0_pay4 (F := Ideal) x0 x1 x2 x3 = outVec x2 (k0_pay2 (F := Ideal) x0 x1 x3) := rfl

theorem pay4_apply (p : Fin 1024) (d : Fin 64) :
    k0_pay4 (F := Ideal) x0 x1 x2 x3 (ix2 p d)
      = ∑ j : Fin 1024, bprob x0 x1 x3 p j * x2 (ix4 (0 : Fin 1) (0 : Fin 1) j d) := by
  rw [pay4_eq, outVec_apply]
  simp only [pay2_apply]

end Cert.KernelIdeal.Body

end
-- ==== Proof.BlockValue.lean ====
/-
  The two blocks one grid point leaves, read at an index.

  The body stores each result once, whole, through a shape cast that only adds two unit axes, and loads each operand
  whole; so the weight block at `(·, ·, p, q)` is the weight `w(p, q)` of the loaded blocks and the output block at
  `(·, ·, p, d)` is `∑_j w(p, j) · x2(j, d)`.
-/
import proofs.«140922_j47691316855178_1_alg».proof.Proof.Gen.KernelIdeal.Value
import proofs.«140922_j47691316855178_1_alg».proof.Proof.BodyValue

noncomputable section

namespace Cert.KernelIdeal.Block

open Cert.KernelIdeal Cert.KernelIdeal.Gen Cert.KernelIdeal.Value Cert.KernelIdeal.Body
open Idealize.ShloMosaic Idealize.ShloMosaic.ValueIdx

theorem zero4 : (![0, 0, 0, 0] : Fin 4 → Nat) = fun _ => 0 := funext fun a => by fin_cases a <;> rfl
theorem zero3 : (![0, 0, 0] : Fin 3 → Nat) = fun _ => 0 := funext fun a => by fin_cases a <;> rfl

variable (x0 x1 x2 : Vec Ideal S1x1x1024x64 .f32) (x3 : Vec Ideal S1x1x1024 .f32)

/-- The weight block. -/
theorem out5_apply (u u' : Fin 1) (p q : Fin 1024) :
    out0_5 x0 x1 x2 x3 (ix4 u u' p q) = bprob x0 x1 x3 p q := by
  unfold out0_5
  rw [canon5_eq]
  simp only [View.ld_unit_zero (S := S1x1x1024x64) zero4, View.ld_unit_zero (S := S1x1x1024) zero3]
  show k0_pay2 x0 x1 x3 (ix5_0 (ix4 u u' p q)) = _
  have e : ix5_0 (ix4 u u' p q) = ix2 p q :=
    funext fun a => Fin.ext (by match a with | ⟨0, _⟩ => rfl | ⟨1, _⟩ => rfl)
  rw [e, pay2_apply]

/-- The output block. -/
theorem out4_apply (u u' : Fin 1) (p : Fin 1024) (d : Fin 64) :
    out0_4 x0 x1 x2 x3 (ix4 u u' p d)
      = ∑ j : Fin 1024, bprob x0 x1 x3 p j * x2 (ix4 (0 : Fin 1) (0 : Fin 1) j d) := by
  unfold out0_4
  rw [canon4_eq]
  simp only [View.ld_unit_zero (S := S1x1x1024x64) zero4, View.ld_unit_zero (S := S1x1x1024) zero3]
  show k0_pay4 x0 x1 x2 x3 (ix4_0 (ix4 u u' p d)) = _
  have e : ix4_0 (ix4 u u' p d) = ix2 p d :=
    funext fun a => Fin.ext (by match a with | ⟨0, _⟩ => rfl | ⟨1, _⟩ => rfl)
  rw [e, pay4_apply]

end Cert.KernelIdeal.Block

end
-- ==== Proof.HostMask.lean ====
/-
  The additive row the region finds.

  Before the region the host turns the integer mask into floats, subtracts it from one, multiplies by `-10000` and adds a
  unit axis in the middle: the array staged for the fourth operand holds, at `(b, 0, j)`, the additive term `bias(b, j)`.
-/
import proofs.«140922_j47691316855178_1_alg».proof.Proof.Gen.KernelIdeal.Frame
import proofs.«140922_j47691316855178_1_alg».proof.Proof.Spec
import Idealize.ShloMosaic.Lib.StableHlo.Run
import Idealize.ShloMosaic.Lib.Pipeline.Value
import Idealize.ShloMosaic.Lib.ValueIdx

noncomputable section

namespace Cert.KernelIdeal.HostMask

open Cert.KernelIdeal Cert.KernelIdeal.Gen Idealize.ShloMosaic Idealize.ShloMosaic.TcCoe Idealize.SL.Sem
open Idealize.ShloMosaic.StableHlo Idealize.ShloMosaic.ValueIdx Cert.PowerAttn

variable (m : (ℓ : Loc nD τ sig) → Buf (Elt Ideal) ℓ)

/-- The staged array as the host operations' term of the integer mask. -/
theorem rowArr_eq (c : Dev nD) : (V m c main_v5 : S8x1x1024.Idx → EReal) =
    broadcastInDim S8x1x1024 ![0, 2] bcast_S8x1024_S8x1x1024_0_2
      (mulf (subf (broadcastInDim S8x1024 ![] bcast_S_S8x1024 (constant (F := Ideal) S_ .f32 0x3F800000#32))
                  (sitofp .f32 (m ((c : Thread nD τ).loc main_arg3))))
            (broadcastInDim S8x1024 ![] bcast_S_S8x1024 (constant (F := Ideal) S_ .f32 0xC61C4000#32))) := by
  dsimp only [Gen.V, Gen.hostOps0]; after_results

/-- Read at `(b, 0, j)`: the additive term of key position `j` in batch `b`. -/
theorem rowArr_apply (c : Dev nD) (b : Fin 8) (j : Fin 1024) :
    (V m c main_v5 : S8x1x1024.Idx → EReal) (ix3 b (0 : Fin 1) j) = bias (m ((c : Thread nD τ).loc main_arg3)) b j := by
  rw [rowArr_eq]
  refine (broadcastInDim_apply _ bcast_S8x1024_S8x1x1024_0_2 _ (ix3 b (0 : Fin 1) j) (ix2 b j) (fun a => match a with
    | ⟨0, _⟩ => by show b.val = if (8 : Nat) = 1 then 0 else b.val; rw [if_neg (by decide)]
    | ⟨1, _⟩ => by show j.val = if (1024 : Nat) = 1 then 0 else j.val; rw [if_neg (by decide)])).trans ?_
  rfl

end Cert.KernelIdeal.HostMask

end
-- ==== Proof.KernelArrays.lean ====
/-
  From blocks to arrays: what the kernel's two result arrays hold after the run.

  The grid has one point per (batch, head) pair. At a point every window's block is the (batch, head) slab of its
  array (the additive row's: the batch's row), so what the point writes back is that slab of the specification's
  weights and weighted sums; the 96 slabs cover each result array, so each array ends holding the specification.
-/
import proofs.«140922_j47691316855178_1_alg».proof.Proof.BlockValue
import proofs.«140922_j47691316855178_1_alg».proof.Proof.HostMask

noncomputable section

namespace Cert.KernelIdeal.Arrays

open Cert.KernelIdeal Cert.KernelIdeal.Gen Cert.KernelIdeal.Value Cert.KernelIdeal.Body Cert.KernelIdeal.Block
open Cert.KernelIdeal.HostMask
open Idealize.ShloMosaic Idealize.ShloMosaic.TcCoe Idealize.SL.Sem Idealize.ShloMosaic.ValueIdx Cert.PowerAttn
open Idealize.ShloMosaic.Pipeline (Dat)

variable (m : (ℓ : Loc nD τ sig) → Buf (Elt Ideal) ℓ) (ρ : Dev nD → PrngReg)

/-- The four argument arrays as launched. -/
abbrev qArr (c : Dev nD) : FVec Ideal SQ .f32 := m ((c : Thread nD τ).loc main_arg0)
abbrev kArr (c : Dev nD) : FVec Ideal SQ .f32 := m ((c : Thread nD τ).loc main_arg1)
abbrev vArr (c : Dev nD) : FVec Ideal SQ .f32 := m ((c : Thread nD τ).loc main_arg2)
abbrev mkArr (c : Dev nD) : IVec SM 32 := m ((c : Thread nD τ).loc main_arg3)

/-! ## The printed index maps, decided over the 96 points -/

/-- The weight window's block index is (batch, head, 0, 0). -/
theorem idx_w5 : ∀ t : Fin cfg0.N,
    win0_5.index t (0 : Fin 4) < 8 ∧ win0_5.index t (1 : Fin 4) < 12
    ∧ win0_5.index t (2 : Fin 4) = 0 ∧ win0_5.index t (3 : Fin 4) = 0 :=
  (by decide +kernel : ∀ t : Fin grid0.N, _)

/-- The same, in the form the other windows' facts have. -/
theorem idx_w5' (t : Fin cfg0.N) :
    win0_5.index t (0 : Fin 4) = win0_5.index t (0 : Fin 4) ∧ win0_5.index t (1 : Fin 4) = win0_5.index t (1 : Fin 4)
    ∧ win0_5.index t (2 : Fin 4) = 0 ∧ win0_5.index t (3 : Fin 4) = 0 :=
  ⟨rfl, rfl, (idx_w5 t).2.2.1, (idx_w5 t).2.2.2⟩

/-- Window 0 moves with the weight window: block (batch, head, 0, 0). -/
theorem idx_w0 : ∀ t : Fin cfg0.N,
    win0_0.index t (0 : Fin 4) = win0_5.index t (0 : Fin 4) ∧ win0_0.index t (1 : Fin 4) = win0_5.index t (1 : Fin 4)
    ∧ win0_0.index t (2 : Fin 4) = 0 ∧ win0_0.index t (3 : Fin 4) = 0 :=
  (by decide +kernel : ∀ t : Fin grid0.N, _)

/-- Window 1 moves with the weight window: block (batch, head, 0, 0). -/
theorem idx_w1 : ∀ t : Fin cfg0.N,
    win0_1.index t (0 : Fin 4) = win0_5.index t (0 : Fin 4) ∧ win0_1.index t (1 : Fin 4) = win0_5.index t (1 : Fin 4)
    ∧ win0_1.index t (2 : Fin 4) = 0 ∧ win0_1.index t (3 : Fin 4) = 0 :=
  (by decide +kernel : ∀ t : Fin grid0.N, _)

/-- Window 2 moves with the weight window: block (batch, head, 0, 0). -/
theorem idx_w2 : ∀ t : Fin cfg0.N,
    win0_2.index t (0 : Fin 4) = win0_5.index t (0 : Fin 4) ∧ win0_2.index t (1 : Fin 4) = win0_5.index t (1 : Fin 4)
    ∧ win0_2.index t (2 : Fin 4) = 0 ∧ win0_2.index t (3 : Fin 4) = 0 :=
  (by decide +kernel : ∀ t : Fin grid0.N, _)

/-- Window 4 moves with the weight window: block (batch, head, 0, 0). -/
theorem idx_w4 : ∀ t : Fin cfg0.N,
    win0_4.index t (0 : Fin 4) = win0_5.index t (0 : Fin 4) ∧ win0_4.index t (1 : Fin 4) = win0_5.index t (1 : Fin 4)
    ∧ win0_4.index t (2 : Fin 4) = 0 ∧ win0_4.index t (3 : Fin 4) = 0 :=
  (by decide +kernel : ∀ t : Fin grid0.N, _)

/-- The additive row's window: block (batch, 0, 0). -/
theorem idx_w3 : ∀ t : Fin cfg0.N,
    win0_3.index t (0 : Fin 3) = win0_5.index t (0 : Fin 4) ∧ win0_3.index t (1 : Fin 3) = 0 ∧ win0_3.index t (2 : Fin 3) = 0 :=
  (by decide +kernel : ∀ t : Fin grid0.N, _)

/-- Every (batch, head) pair is some point's. -/
theorem idx_onto : ∀ (b : Fin 8) (h : Fin 12), ∃ t : Fin cfg0.N, win0_5.index t (0 : Fin 4) = b.val ∧ win0_5.index t (1 : Fin 4) = h.val :=
  (by decide +kernel : ∀ (b : Fin 8) (h : Fin 12), ∃ t : Fin grid0.N, win0_5.index t (0 : Fin 4) = b.val ∧ win0_5.index t (1 : Fin 4) = h.val)

/-- The batch and the head of a grid point. -/
def bOf (t : Fin cfg0.N) : Fin 8 := ⟨win0_5.index t (0 : Fin 4), (idx_w5 t).1⟩
def hOf (t : Fin cfg0.N) : Fin 12 := ⟨win0_5.index t (1 : Fin 4), (idx_w5 t).2.1⟩

/-! ## The input blocks at a point -/

/-- The query block at a point is the (batch, head) slab of the query array. -/
theorem qblk_apply (c : Dev nD) (t : Fin cfg0.N) (p : Fin 1024) (d : Fin 64) :
    (iblk m c 0 t : Vec Ideal S1x1x1024x64 .f32) (ix4 (0 : Fin 1) (0 : Fin 1) p d) = qArr m c (ix4 (bOf t) (hOf t) p d) := by
  obtain ⟨e0, e1, e2, e3⟩ := idx_w0 t
  show V m c main_arg0 (((cfg0.win 0).blk t).view.emb (ix4 (0 : Fin 1) (0 : Fin 1) p d)) = _
  rw [V_main_arg0]
  refine congrArg (m ((c : Thread nD τ).loc main_arg0)) (funext fun a => Fin.ext ?_)
  match a with
  | ⟨0, _⟩ => show win0_0.index t (0 : Fin 4) * 1 + 1 * 0 = win0_5.index t (0 : Fin 4); omega
  | ⟨1, _⟩ => show win0_0.index t (1 : Fin 4) * 1 + 1 * 0 = win0_5.index t (1 : Fin 4); omega
  | ⟨2, _⟩ => show win0_0.index t (2 : Fin 4) * 1024 + 1 * p.val = p.val; omega
  | ⟨3, _⟩ => show win0_0.index t (3 : Fin 4) * 64 + 1 * d.val = d.val; omega

/-- The key block at a point is the (batch, head) slab of the key array. -/
theorem kblk_apply (c : Dev nD) (t : Fin cfg0.N) (p : Fin 1024) (d : Fin 64) :
    (iblk m c 1 t : Vec Ideal S1x1x1024x64 .f32) (ix4 (0 : Fin 1) (0 : Fin 1) p d) = kArr m c (ix4 (bOf t) (hOf t) p d) := by
  obtain ⟨e0, e1, e2, e3⟩ := idx_w1 t
  show V m c main_arg1 (((cfg0.win 1).blk t).view.emb (ix4 (0 : Fin 1) (0 : Fin 1) p d)) = _
  rw [V_main_arg1]
  refine congrArg (m ((c : Thread nD τ).loc main_arg1)) (funext fun a => Fin.ext ?_)
  match a with
  | ⟨0, _⟩ => show win0_1.index t (0 : Fin 4) * 1 + 1 * 0 = win0_5.index t (0 : Fin 4); omega
  | ⟨1, _⟩ => show win0_1.index t (1 : Fin 4) * 1 + 1 * 0 = win0_5.index t (1 : Fin 4); omega
  | ⟨2, _⟩ => show win0_1.index t (2 : Fin 4) * 1024 + 1 * p.val = p.val; omega
  | ⟨3, _⟩ => show win0_1.index t (3 : Fin 4) * 64 + 1 * d.val = d.val; omega

/-- The value block at a point is the (batch, head) slab of the value array. -/
theorem vblk_apply (c : Dev nD) (t : Fin cfg0.N) (p : Fin 1024) (d : Fin 64) :
    (iblk m c 2 t : Vec Ideal S1x1x1024x64 .f32) (ix4 (0 : Fin 1) (0 : Fin 1) p d) = vArr m c (ix4 (bOf t) (hOf t) p d) := by
  obtain ⟨e0, e1, e2, e3⟩ := idx_w2 t
  show V m c main_arg2 (((cfg0.win 2).blk t).view.emb (ix4 (0 : Fin 1) (0 : Fin 1) p d)) = _
  rw [V_main_arg2]
  refine congrArg (m ((c : Thread nD τ).loc main_arg2)) (funext fun a => Fin.ext ?_)
  match a with
  | ⟨0, _⟩ => show win0_2.index t (0 : Fin 4) * 1 + 1 * 0 = win0_5.index t (0 : Fin 4); omega
  | ⟨1, _⟩ => show win0_2.index t (1 : Fin 4) * 1 + 1 * 0 = win0_5.index t (1 : Fin 4); omega
  | ⟨2, _⟩ => show win0_2.index t (2 : Fin 4) * 1024 + 1 * p.val = p.val; omega
  | ⟨3, _⟩ => show win0_2.index t (3 : Fin 4) * 64 + 1 * d.val = d.val; omega

/-- The additive row's block at a point is the batch's row of additive terms. -/
theorem rblk_apply (c : Dev nD) (t : Fin cfg0.N) (q : Fin 1024) :
    (iblk m c 3 t : Vec Ideal S1x1x1024 .f32) (ix3 (0 : Fin 1) (0 : Fin 1) q) = bias (mkArr m c) (bOf t) q := by
  obtain ⟨e0, e1, e2⟩ := idx_w3 t
  show V m c main_v5 (((cfg0.win 3).blk t).view.emb (ix3 (0 : Fin 1) (0 : Fin 1) q)) = _
  have e : ((cfg0.win 3).blk t).view.emb (ix3 (0 : Fin 1) (0 : Fin 1) q) = ix3 (bOf t) (0 : Fin 1) q :=
    funext fun a => Fin.ext (by
      match a with
      | ⟨0, _⟩ => show win0_3.index t (0 : Fin 3) * 1 + 1 * 0 = win0_5.index t (0 : Fin 4); omega
      | ⟨1, _⟩ => show win0_3.index t (1 : Fin 3) * 1 + 1 * 0 = 0; omega
      | ⟨2, _⟩ => show win0_3.index t (2 : Fin 3) * 1024 + 1 * q.val = q.val; omega)
  rw [e]
  exact rowArr_apply m c (bOf t) q

/-! ## A point's scores and weights are the specification's -/

theorem bscore_blk (c : Dev nD) (t : Fin cfg0.N) (p j : Fin 1024) :
    bscore (iblk m c 0 t) (iblk m c 1 t) (iblk m c 3 t) p j
      = score (qArr m c) (kArr m c) (mkArr m c) (bOf t) (hOf t) p j := by
  unfold bscore score
  rw [rblk_apply]
  simp only [qblk_apply, kblk_apply]

theorem bprob_blk (c : Dev nD) (t : Fin cfg0.N) (p q : Fin 1024) :
    bprob (iblk m c 0 t) (iblk m c 1 t) (iblk m c 3 t) p q
      = prob (qArr m c) (kArr m c) (mkArr m c) (ix4 (bOf t) (hOf t) p q) := by
  unfold bprob
  simp only [bscore_blk]
  rfl

/-! ## The weights array -/

/-- Where a block index of output window 5 lands in the array. -/
theorem emb5 (t : Fin cfg0.N) (u u' : Fin 1) (p : Fin 1024) (q : Fin 1024) :
    ((cfg0.win 5).blk t).view.emb (ix4 u u' p q) = ix4 (bOf t) (hOf t) p q := by
  obtain ⟨e0, e1, e2, e3⟩ := idx_w5' t
  have hu : u.val = 0 := by omega
  have hu' : u'.val = 0 := by omega
  funext a; apply Fin.ext
  match a with
  | ⟨0, _⟩ => show win0_5.index t (0 : Fin 4) * 1 + 1 * u.val = win0_5.index t (0 : Fin 4); omega
  | ⟨1, _⟩ => show win0_5.index t (1 : Fin 4) * 1 + 1 * u'.val = win0_5.index t (1 : Fin 4); omega
  | ⟨2, _⟩ => show win0_5.index t (2 : Fin 4) * 1024 + 1 * p.val = p.val; omega
  | ⟨3, _⟩ => show win0_5.index t (3 : Fin 4) * 1024 + 1 * q.val = q.val; omega

/-- An index of the array is in point `t`'s block of window 5 iff each coordinate is in the block's range. -/
theorem mem_blk5 (t : Fin cfg0.N) (i : S8x12x1024x1024.Idx) :
    i ∈ ((cfg0.win 5).blk t).view.set ↔ ∀ a : Fin 4, win0_5.index t a * S1x1x1024x1024.size a ≤ (i a).val ∧ (i a).val < win0_5.index t a * S1x1x1024x1024.size a + S1x1x1024x1024.size a := by
  show i ∈ ((View.whole main_v6_1).slice (win0_5.rect t)).set ↔ _
  rw [View.set_slice_whole, Rect.mem_set_unit]
  exact Iff.rfl

/-- Every index of the array is in the block of the point of its own (batch, head). -/
theorem cover5 (i : S8x12x1024x1024.Idx) : ∃ t : Fin cfg0.N, (cfg0.win 5).flush t = true ∧ i ∈ ((cfg0.win 5).blk t).view.set := by
  obtain ⟨t, ht0, ht1⟩ := idx_onto (i 0) (i 1)
  obtain ⟨e0, e1, e2, e3⟩ := idx_w5' t
  refine ⟨t, flush0_5 t, ?_⟩
  rw [mem_blk5]
  intro a
  have h2 : (i 2).val < 1024 := (i 2).isLt
  have h3 : (i 3).val < 1024 := (i 3).isLt
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 1024 ≤ (i 2).val ∧ (i 2).val < win0_5.index t (2 : Fin 4) * 1024 + 1024; omega
  | ⟨3, _⟩ => show win0_5.index t (3 : Fin 4) * 1024 ≤ (i 3).val ∧ (i 3).val < win0_5.index t (3 : Fin 4) * 1024 + 1024; omega

/-- What a point writes back to the weights array is its slab of the specification's weights. -/
theorem flushed5_eq (c : Dev nD) (t : Fin cfg0.N) :
    (dats m 0 c).flushed 5 t = ((cfg0.win 5).blk t).view.read (Elt Ideal) (prob (qArr m c) (kArr m c) (mkArr m c)) := by
  rw [Value.flushed5]
  funext y
  obtain ⟨u, u', p, q, rfl⟩ : ∃ (u u' : Fin 1) (p q : Fin 1024), y = ix4 u u' p q := ⟨y 0, y 1, y 2, y 3, eq_ix4 y⟩
  show out0_5 (iblk m c 0 t) (iblk m c 1 t) (iblk m c 2 t) (iblk m c 3 t) (ix4 u u' p q)
      = prob (qArr m c) (kArr m c) (mkArr m c) (((cfg0.win 5).blk t).view.emb (ix4 u u' p q))
  rw [out5_apply, emb5, bprob_blk]

theorem final5 (c : Dev nD) : (dats m 0 c).arrAt 5 cfg0.N = prob (qArr m c) (kArr m c) (mkArr m c) :=
  (dats m 0 c).arrAt_eq_of_cover 5 (prob (qArr m c) (kArr m c) (mkArr m c)) (fun t _ => flushed5_eq m c t) cover5

/-! ## The output array -/

/-- Where a block index of output window 4 lands in the array. -/
theorem emb4 (t : Fin cfg0.N) (u u' : Fin 1) (p : Fin 1024) (q : Fin 64) :
    ((cfg0.win 4).blk t).view.emb (ix4 u u' p q) = ix4 (bOf t) (hOf t) p q := by
  obtain ⟨e0, e1, e2, e3⟩ := idx_w4 t
  have hu : u.val = 0 := by omega
  have hu' : u'.val = 0 := by omega
  funext a; apply Fin.ext
  match a with
  | ⟨0, _⟩ => show win0_4.index t (0 : Fin 4) * 1 + 1 * u.val = win0_5.index t (0 : Fin 4); omega
  | ⟨1, _⟩ => show win0_4.index t (1 : Fin 4) * 1 + 1 * u'.val = win0_5.index t (1 : Fin 4); omega
  | ⟨2, _⟩ => show win0_4.index t (2 : Fin 4) * 1024 + 1 * p.val = p.val; omega
  | ⟨3, _⟩ => show win0_4.index t (3 : Fin 4) * 64 + 1 * q.val = q.val; omega

/-- An index of the array is in point `t`'s block of window 4 iff each coordinate is in the block's range. -/
theorem mem_blk4 (t : Fin cfg0.N) (i : S8x12x1024x64.Idx) :
    i ∈ ((cfg0.win 4).blk t).view.set ↔ ∀ a : Fin 4, win0_4.index t a * S1x1x1024x64.size a ≤ (i a).val ∧ (i a).val < win0_4.index t a * S1x1x1024x64.size a + S1x1x1024x64.size a := by
  show i ∈ ((View.whole main_v6_0).slice (win0_4.rect t)).set ↔ _
  rw [View.set_slice_whole, Rect.mem_set_unit]
  exact Iff.rfl

/-- Every index of the array is in the block of the point of its own (batch, head). -/
theorem cover4 (i : S8x12x1024x64.Idx) : ∃ t : Fin cfg0.N, (cfg0.win 4).flush t = true ∧ i ∈ ((cfg0.win 4).blk t).view.set := by
  obtain ⟨t, ht0, ht1⟩ := idx_onto (i 0) (i 1)
  obtain ⟨e0, e1, e2, e3⟩ := idx_w4 t
  refine ⟨t, flush0_4 t, ?_⟩
  rw [mem_blk4]
  intro a
  have h2 : (i 2).val < 1024 := (i 2).isLt
  have h3 : (i 3).val < 64 := (i 3).isLt
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-- What a point writes back to the output array is its slab of the specification's weighted sums. -/
theorem flushed4_eq (c : Dev nD) (t : Fin cfg0.N) :
    (dats m 0 c).flushed 4 t
      = ((cfg0.win 4).blk t).view.read (Elt Ideal) (out (qArr m c) (kArr m c) (vArr m c) (mkArr m c)) := by
  rw [Value.flushed4]
  funext y
  obtain ⟨u, u', p, d, rfl⟩ : ∃ (u u' : Fin 1) (p : Fin 1024) (d : Fin 64), y = ix4 u u' p d := ⟨y 0, y 1, y 2, y 3, eq_ix4 y⟩
  show out0_4 (iblk m c 0 t) (iblk m c 1 t) (iblk m c 2 t) (iblk m c 3 t) (ix4 u u' p d)
      = out (qArr m c) (kArr m c) (vArr m c) (mkArr m c) (((cfg0.win 4).blk t).view.emb (ix4 u u' p d))
  rw [out4_apply, emb4]
  show (∑ j : Fin 1024, bprob (iblk m c 0 t) (iblk m c 1 t) (iblk m c 3 t) p j * (iblk m c 2 t : Vec Ideal S1x1x1024x64 .f32) (ix4 (0 : Fin 1) (0 : Fin 1) j d))
      = ∑ j : Fin 1024, prob (qArr m c) (kArr m c) (mkArr m c) (ix4 (bOf t) (hOf t) p j) * vArr m c (ix4 (bOf t) (hOf t) j d)
  simp only [bprob_blk, vblk_apply]

theorem final4 (c : Dev nD) : (dats m 0 c).arrAt 4 cfg0.N = out (qArr m c) (kArr m c) (vArr m c) (mkArr m c) :=
  (dats m 0 c).arrAt_eq_of_cover 4 (out (qArr m c) (kArr m c) (vArr m c) (mkArr m c)) (fun t _ => flushed4_eq m c t) cover4

/-! ## The run -/

/-- Every weakly fair execution of the kernel's program ends with the two result arrays at the specification of the
    argument arrays, the arguments unchanged. -/
theorem run : θ_run defs (onTc (τ := τ) (main (F := Ideal))) ⟨m, fun _ => 0, ρ⟩ fun r => ∀ c : Dev nD,
      r.2.mem ((c : Thread nD τ).loc main_v6_0) = out (qArr m c) (kArr m c) (vArr m c) (mkArr m c)
      ∧ r.2.mem ((c : Thread nD τ).loc main_v6_1) = prob (qArr m c) (kArr m c) (mkArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.KernelIdeal.Arrays

end
-- ==== Proof.RefValue.lean ====
/-
  The reference, one operation at a time, is the specification.

  Its first product pairs the 64 lanes of a query row and a key row inside one (batch, head) pair, its mask term is
  spread over heads and query rows before the product with `-10000` (the same term index by index), its row sum starts
  from the zero word, and its second product pairs a query row's 1024 weights with a column of the values.
-/
import proofs.«140922_j47691316855178_1_alg».proof.Proof.Gen.ReferenceIdeal.Read
import proofs.«140922_j47691316855178_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.PowerAttn

variable (x0 x1 x2 : FVec Ideal SQ .f32) (x3 : IVec SM 32)

theorem score_apply (b : Fin 8) (h : Fin 12) (i j : Fin 1024) :
    val_main_v10 (F := Ideal) x0 x1 x3 (ix4 b h i j) = score x0 x1 x3 b h i j := by
  rw [val_main_v10_apply, val_main_v2_apply, val_main_v0_apply, val_main_v1_apply, val_main_cst_apply, val_main_v9_apply,
    val_main_v8_apply, val_main_v6_apply, val_main_v7_apply, val_main_cst_1_apply, val_main_v5_apply, val_main_v4_apply,
    val_main_cst_0_apply, val_main_v3_apply]
  have e1 : ∀ k : Fin 64, lidx_main_v0 (ix4 b h i j) k = ix4 b h i k := fun k =>
    funext fun a => Fin.ext (by match a with | ⟨0, _⟩ => rfl | ⟨1, _⟩ => rfl | ⟨2, _⟩ => rfl | ⟨3, _⟩ => rfl)
  have e2 : ∀ k : Fin 64, ridx_main_v0 (ix4 b h i j) k = ix4 b h j k := fun k =>
    funext fun a => Fin.ext (by match a with | ⟨0, _⟩ => rfl | ⟨1, _⟩ => rfl | ⟨2, _⟩ => rfl | ⟨3, _⟩ => rfl)
  have e3 : idx_main_v6 (idx_main_v9 (ix4 b h i j)) = ix2 b j :=
    funext fun a => Fin.ext (by match a with | ⟨0, _⟩ => rfl | ⟨1, _⟩ => rfl)
  simp only [e1, e2, e3]
  rfl

theorem num_apply (b : Fin 8) (h : Fin 12) (i j : Fin 1024) :
    val_main_v11 (F := Ideal) x0 x1 x3 (ix4 b h i j) = num x0 x1 x3 b h i j := by
  rw [val_main_v11_apply, score_apply]
  rfl

theorem den_apply (b : Fin 8) (h : Fin 12) (i j : Fin 1024) :
    val_main_v16 (F := Ideal) x0 x1 x3 (ix4 b h i j) = den x0 x1 x3 b h i := by
  rw [val_main_v16_apply, val_main_v15_apply, val_main_v13_apply, val_main_v12_apply, val_main_cst_2_apply,
    val_main_v14_apply, val_main_cst_3_apply]
  have e : ∀ k : Fin 1024, idx_main_v12 (idx_main_v13 (idx_main_v16 (ix4 b h i j))) k = ix4 b h i k := fun k =>
    funext fun a => Fin.ext (by match a with | ⟨0, _⟩ => rfl | ⟨1, _⟩ => rfl | ⟨2, _⟩ => rfl | ⟨3, _⟩ => rfl)
  simp only [e, num_apply]
  show (Ideal.ofBits .f32 0x00000000#32 + ∑ k : Fin 1024, num x0 x1 x3 b h i k) + epsW = den x0 x1 x3 b h i
  rw [Ideal.ofBits_zero_f32, zero_add]
  rfl

/-- The reference's second result is the weights. -/
theorem prob_eq : val_main_v17 (F := Ideal) x0 x1 x3 = prob x0 x1 x3 := by
  funext y
  obtain ⟨b, h, i, j, rfl⟩ : ∃ (b : Fin 8) (h : Fin 12) (i j : Fin 1024), y = ix4 b h i j := ⟨y 0, y 1, y 2, y 3, eq_ix4 y⟩
  rw [val_main_v17_apply, num_apply, den_apply]
  rfl

/-- The reference's first result is the weighted sum of the value rows. -/
theorem out_eq : val_main_v18 (F := Ideal) x0 x1 x2 x3 = out x0 x1 x2 x3 := by
  funext y
  obtain ⟨b, h, i, d, rfl⟩ : ∃ (b : Fin 8) (h : Fin 12) (i : Fin 1024) (d : Fin 64), y = ix4 b h i d := ⟨y 0, y 1, y 2, y 3, eq_ix4 y⟩
  rw [val_main_v18_apply, prob_eq]
  have e1 : ∀ k : Fin 1024, lidx_main_v18 (ix4 b h i d) k = ix4 b h i k := fun k =>
    funext fun a => Fin.ext (by match a with | ⟨0, _⟩ => rfl | ⟨1, _⟩ => rfl | ⟨2, _⟩ => rfl | ⟨3, _⟩ => rfl)
  have e2 : ∀ k : Fin 1024, ridx_main_v18 (ix4 b h i d) k = ix4 b h k d := fun k =>
    funext fun a => Fin.ext (by match a with | ⟨0, _⟩ => rfl | ⟨1, _⟩ => rfl | ⟨2, _⟩ => rfl | ⟨3, _⟩ => rfl)
  simp only [e1, e2]
  rfl

end Cert.ReferenceIdeal.RefValue

end
-- ==== Proof.lean ====
/-
  Power-softmax attention (exponent 2): a kernel that handles one (batch, head) pair per grid point against the
  reference written with two batched products.

  Both programs compute, for batch `b`, head `h`, query row `i`, key row `j` and lane `d`,

    score = (∑_d q·k) · 1/8 + (1 - float(mask)) · (-10000),   weight = score² / (∑_j score² + ε),
    out   = ∑_j weight · v,

  with the same four constant words. At the extended reals a change of float format is the identity, a matrix product
  into a zero accumulator and the host's product are the same finite sum, and a lane sum from the zero word and the
  host's sum from the zero word are the same finite sum; so, index by index, both programs ARE the one specification
  (Proof/Spec.lean), and no algebraic law — hence no finiteness of the inputs — is needed to join them.

  The kernel's side: the body's two stored values at an index (Proof/BodyValue.lean, Proof/BlockValue.lean), the
  additive row the host prepares (Proof/HostMask.lean), and the 96 (batch, head) slabs covering each result array
  (Proof/KernelArrays.lean). The reference's side: its operations read one at a time (Proof/RefValue.lean).
  The idealization rewrote nothing, so `preserves` is trivial.
-/
import proofs.«140922_j47691316855178_1_alg».proof.Defs
import proofs.«140922_j47691316855178_1_alg».proof.Proof.Gen.Kernel
import proofs.«140922_j47691316855178_1_alg».proof.Proof.Gen.Kernel.Skeleton
import proofs.«140922_j47691316855178_1_alg».proof.Proof.Gen.Kernel.Launch
import proofs.«140922_j47691316855178_1_alg».proof.Proof.Gen.Kernel.Points
import proofs.«140922_j47691316855178_1_alg».proof.Proof.Gen.Kernel.Frame
import proofs.«140922_j47691316855178_1_alg».proof.Proof.Gen.KernelIdeal
import proofs.«140922_j47691316855178_1_alg».proof.Proof.Gen.KernelIdeal.Skeleton
import proofs.«140922_j47691316855178_1_alg».proof.Proof.Gen.KernelIdeal.Launch
import proofs.«140922_j47691316855178_1_alg».proof.Proof.Gen.KernelIdeal.Points
import proofs.«140922_j47691316855178_1_alg».proof.Proof.Gen.KernelIdeal.Frame
import proofs.«140922_j47691316855178_1_alg».proof.Proof.Gen.ReferenceIdeal
import proofs.«140922_j47691316855178_1_alg».proof.Proof.Gen.Pre_finite_inputs
import proofs.«140922_j47691316855178_1_alg».proof.Proof.Gen.KernelIdeal.Value
import proofs.«140922_j47691316855178_1_alg».proof.Proof.Gen.ReferenceIdeal.Run
import proofs.«140922_j47691316855178_1_alg».proof.Proof.Gen.ReferenceIdeal.Read
import proofs.«140922_j47691316855178_1_alg».proof.Proof.KernelArrays
import proofs.«140922_j47691316855178_1_alg».proof.Proof.RefValue
import Idealize.ShloMosaic.Adequacy
import Idealize.ShloMosaic.Init

noncomputable section

namespace Cert.Proof

open Idealize.ShloMosaic Idealize.ShloMosaic.TcCoe Idealize.SL.Sem
open Cert.PowerAttn Cert.KernelIdeal.Arrays

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel's result arrays end at the specification of its arguments and the
    reference's at the specification of its own: the same arrays. -/
theorem algebraic : Cert.algebraic_KernelIdeal_ReferenceIdeal := by
  intro m ρ m' ρ' _ hagree
  refine ⟨fun c => out (qArr m c) (kArr m c) (vArr m c) (mkArr m c), fun c => prob (qArr m c) (kArr m c) (mkArr m c),
    Cert.KernelIdeal.Arrays.run m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v18_eq, Cert.ReferenceIdeal.RefValue.out_eq,
      (hagree c).1, (hagree c).2.1, (hagree c).2.2.1, (hagree c).2.2.2]
  · rw [(h c).2.1, Cert.ReferenceIdeal.Read.val_main_v17_eq, Cert.ReferenceIdeal.RefValue.prob_eq,
      (hagree c).1, (hagree c).2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
